-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S8x4096x1024 : Shape := ⟨3, ![8, 4096, 1024]⟩
abbrev S1024 : Shape := ⟨1, ![1024]⟩
abbrev S128x1024 : Shape := ⟨2, ![128, 1024]⟩
abbrev S128 : Shape := ⟨1, ![128]⟩
abbrev S1024x128 : Shape := ⟨2, ![1024, 128]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S1024 : S_.BroadcastsInDim S1024 (![] : Fin 0 → Fin S1024.rank)
  reducesTo_S1024_S_d0 : S1024.ReducesTo [0] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S128x1024 .f32) (main_arg5 : FVec F S128 .f32) (main_arg6 : FVec F S1024x128 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S128x1024 .f32 := Host.absf main_arg4
  let main_cst_6 : FVec F S_ .f32 := constant S_ .f32 0x7F800000#32
  let main_v20 : FVec F S128x1024 .f32 := broadcastInDim S128x1024 ![] bcast_S_S128x1024 main_cst_6
  let main_v21 : IVec S128x1024 1 := cmpf .olt main_v19 main_v20
  let main_c_7 : IVec S_ 1 := constantI S_ 1 1#1
  let main_v22 : IVec S_ 1 := (fun x v => Host.reduce IntOp.andi x v reducesTo_S128x1024_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1024x128 .f32 := Host.absf main_arg6
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg7 main_v33

def fn {F : FTy → Type} [FloatOps F] (main_arg0 : FVec F S4096x8x1024 .f32) (main_arg1 : FVec F S8x4096x1024 .f32) (main_arg2 : FVec F S1024 .f32) (main_arg3 : FVec F S1024 .f32) (main_arg4 : FVec F S128x1024 .f32) (main_arg5 : FVec F S128 .f32) (main_arg6 : FVec F S1024x128 .f32) (main_arg7 : FVec F S1024 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4096x8x1024 : Shape := ⟨3, ![4096, 8, 1024]⟩
abbrev S8x4096x1024 : Shape := ⟨3, ![8, 4096, 1024]⟩
abbrev S1024 : Shape := ⟨1, ![1024]⟩
abbrev S128x1024 : Shape := ⟨2, ![128, 1024]⟩
abbrev S128 : Shape := ⟨1, ![128]⟩
abbrev S1024x128 : Shape := ⟨2, ![1024, 128]⟩
abbrev S128x8x1024 : Shape := ⟨3, ![128, 8, 1024]⟩
abbrev S8x128x1024 : Shape := ⟨3, ![8, 128, 1024]⟩
abbrev S128x1x1024 : Shape := ⟨3, ![128, 1, 1024]⟩
abbrev S1x128x1024 : Shape := ⟨3, ![1, 128, 1024]⟩
abbrev S128x1 : Shape := ⟨2, ![128, 1]⟩
abbrev S1x1024 : Shape := ⟨2, ![1, 1024]⟩
abbrev S128x128 : Shape := ⟨2, ![128, 128]⟩
abbrev S1x128 : Shape := ⟨2, ![1, 128]⟩

abbrev nBuf : Space → Nat
  | .hbm => 13
  | .vmem => 12
  | .smem => 0
  | _ => 0

abbrev bufTy : (tb : Table) → Fin (tcTables nBuf tb) → BufTy
  | .hbm, ⟨0, _⟩ => ⟨S4096x8x1024, .f32⟩
  | .hbm, ⟨1, _⟩ => ⟨S8x4096x1024, .f32⟩
  | .hbm, ⟨2, _⟩ => ⟨S1024, .f32⟩
  | .hbm, ⟨3, _⟩ => ⟨S1024, .f32⟩
  | .hbm, ⟨4, _⟩ => ⟨S128x1024, .f32⟩
  | .hbm, ⟨5, _⟩ => ⟨S128, .f32⟩
  | .hbm, ⟨6, _⟩ => ⟨S1024x128, .f32⟩
  | .hbm, ⟨7, _⟩ => ⟨S1024, .f32⟩
  | .hbm, ⟨8, _⟩ => ⟨S1024x128, .f32⟩
  | .hbm, ⟨9, _⟩ => ⟨S1024x128, .bf16⟩
  | .hbm, ⟨10, _⟩ => ⟨S128x1024, .f32⟩
  | .hbm, ⟨11, _⟩ => ⟨S128x1024, .bf16⟩
  | .hbm, ⟨12, _⟩ => ⟨S4096x8x1024, .f32⟩
  | .local _ .vmem, ⟨0, _⟩ => ⟨S128x8x1024, .f32⟩
  | .local _ .vmem, ⟨1, _⟩ => ⟨S128x8x1024, .f32⟩
  | .local _ .vmem, ⟨2, _⟩ => ⟨S8x128x1024, .f32⟩
  | .local _ .vmem, ⟨3, _⟩ => ⟨S8x128x1024, .f32⟩
  | .local _ .vmem, ⟨4, _⟩ => ⟨S1024, .f32⟩
  | .local _ .vmem, ⟨5, _⟩ => ⟨S1024, .f32⟩
  | .local _ .vmem, ⟨6, _⟩ => ⟨S1024x128, .bf16⟩
  | .local _ .vmem, ⟨7, _⟩ => ⟨S128, .f32⟩
  | .local _ .vmem, ⟨8, _⟩ => ⟨S128x1024, .bf16⟩
  | .local _ .vmem, ⟨9, _⟩ => ⟨S1024, .f32⟩
  | .local _ .vmem, ⟨10, _⟩ => ⟨S128x8x1024, .f32⟩
  | .local _ .vmem, ⟨11, _⟩ => ⟨S128x8x1024, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S128x1024_S1024x128_1_0 : S128x1024.Transposes [1, 0] S1024x128
  bitsLt_bf16_f32 : FTy.bits .bf16 < FTy.bits .f32
  transposes_S1024x128_S128x1024_1_0 : S1024x128.Transposes [1, 0] S128x1024
  inb_S1024_S1024_0 : ∀ a, (![0] : Fin 1 → Nat) a + S1024.size a ≤ S1024.size a
  h_S1024 : 0 < S1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x8x1024_S128x1x1024_0_0_0 : ∀ a, (![0, 0, 0] : Fin 3 → Nat) a + S128x1x1024.size a ≤ S128x8x1024.size a
  h_S128x1x1024 : 0 < S128x1x1024.numel
  shapeCasts_S128x1x1024_S128x1024 : S128x1x1024.ShapeCasts S128x1024
  inb_S8x128x1024_S1x128x1024_0_0_0 : ∀ a, (![0, 0, 0] : Fin 3 → Nat) a + S1x128x1024.size a ≤ S8x128x1024.size a
  h_S1x128x1024 : 0 < S1x128x1024.numel
  shapeCasts_S1x128x1024_S128x1024 : S1x128x1024.ShapeCasts S128x1024
  reduces_S128x1024_S128 : S128x1024.Reduces [1] S128
  shapeCasts_S128_S128x1 : S128.ShapeCasts S128x1
  broadcasts_S128x1_S128x1024 : S128x1.Broadcasts S128x1024
  shapeCasts_S1024_S1x1024 : S1024.ShapeCasts S1x1024
  broadcasts_S1x1024_S128x1024 : S1x1024.Broadcasts S128x1024
  shapeCasts_S128_S1x128 : S128.ShapeCasts S1x128
  broadcasts_S1x128_S128x128 : S1x128.Broadcasts S128x128
  shapeCasts_S128x1024_S128x1x1024 : S128x1024.ShapeCasts S128x1x1024
  inb_S128x8x1024_S128x1x1024_0_1_0 : ∀ a, (![0, 1, 0] : Fin 3 → Nat) a + S128x1x1024.size a ≤ S128x8x1024.size a
  inb_S8x128x1024_S1x128x1024_1_0_0 : ∀ a, (![1, 0, 0] : Fin 3 → Nat) a + S1x128x1024.size a ≤ S8x128x1024.size a
  inb_S128x8x1024_S128x1x1024_0_2_0 : ∀ a, (![0, 2, 0] : Fin 3 → Nat) a + S128x1x1024.size a ≤ S128x8x1024.size a
  inb_S8x128x1024_S1x128x1024_2_0_0 : ∀ a, (![2, 0, 0] : Fin 3 → Nat) a + S1x128x1024.size a ≤ S8x128x1024.size a
  inb_S128x8x1024_S128x1x1024_0_3_0 : ∀ a, (![0, 3, 0] : Fin 3 → Nat) a + S128x1x1024.size a ≤ S128x8x1024.size a
  inb_S8x128x1024_S1x128x1024_3_0_0 : ∀ a, (![3, 0, 0] : Fin 3 → Nat) a + S1x128x1024.size a ≤ S8x128x1024.size a
  inb_S128x8x1024_S128x1x1024_0_4_0 : ∀ a, (![0, 4, 0] : Fin 3 → Nat) a + S128x1x1024.size a ≤ S128x8x1024.size a
  inb_S8x128x1024_S1x128x1024_4_0_0 : ∀ a, (![4, 0, 0] : Fin 3 → Nat) a + S1x128x1024.size a ≤ S8x128x1024.size a
  inb_S128x8x1024_S128x1x1024_0_5_0 : ∀ a, (![0, 5, 0] : Fin 3 → Nat) a + S128x1x1024.size a ≤ S128x8x1024.size a
  inb_S8x128x1024_S1x128x1024_5_0_0 : ∀ a, (![5, 0, 0] : Fin 3 → Nat) a + S1x128x1024.size a ≤ S8x128x1024.size a
  inb_S128x8x1024_S128x1x1024_0_6_0 : ∀ a, (![0, 6, 0] : Fin 3 → Nat) a + S128x1x1024.size a ≤ S128x8x1024.size a
  inb_S8x128x1024_S1x128x1024_6_0_0 : ∀ a, (![6, 0, 0] : Fin 3 → Nat) a + S1x128x1024.size a ≤ S8x128x1024.size a
  inb_S128x8x1024_S128x1x1024_0_7_0 : ∀ a, (![0, 7, 0] : Fin 3 → Nat) a + S128x1x1024.size a ≤ S128x8x1024.size a
  inb_S8x128x1024_S1x128x1024_7_0_0 : ∀ a, (![7, 0, 0] : Fin 3 → Nat) a + S1x128x1024.size a ≤ S8x128x1024.size a
  dot_S128x1024_S1024x128_S128x128_1_0_0_1_n_n_wf : DotDims.WF S128x1024 S1024x128 S128x128 [1] [0] [0] [1] [] []
  dot_S128x128_S128x1024_S128x1024_1_0_0_1_n_n_wf : DotDims.WF S128x128 S128x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x1024.size a ≤ S4096x8x1024.size a
  hwx0_0 : ∀ i : grid0.Coords, EltTy.bits .f32 = 32 ∨ (Rect.block (s := S4096x8x1024) S128x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S8x4096x1024.size a
  hwx0_1 : ∀ i : grid0.Coords, EltTy.bits .f32 = 32 ∨ (Rect.block (s := S8x4096x1024) S8x128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S128x1024.size a
  hwx0_6 : ∀ i : grid0.Coords, EltTy.bits .bf16 = 32 ∨ (Rect.block (s := S128x1024) S128x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x8x1024.size a ≤ S4096x8x1024.size a
  hwx0_8 : ∀ i : grid0.Coords, EltTy.bits .f32 = 32 ∨ (Rect.block (s := S4096x8x1024) S128x8x1024.size (cc0_transform_8 i) (hinb0_8 i)).WholeWords (EltTy.packing .f32)

variable [Facts₀]

def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf

abbrev win0_0 : Pipeline.Window sig grid0 :=
  Pipeline.Window.ofSpec (Memref.whole main_arg0) S128x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S128x8x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x8x1024 : Shape := ⟨3, ![4096, 8, 1024]⟩
abbrev S8x4096x1024 : Shape := ⟨3, ![8, 4096, 1024]⟩
abbrev S1024 : Shape := ⟨1, ![1024]⟩
abbrev S128x1024 : Shape := ⟨2, ![128, 1024]⟩
abbrev S128 : Shape := ⟨1, ![128]⟩
abbrev S1024x128 : Shape := ⟨2, ![1024, 128]⟩
abbrev S_ : Shape := ⟨0, ![]⟩
abbrev S4096x8 : Shape := ⟨2, ![4096, 8]⟩
abbrev S4096x8x1 : Shape := ⟨3, ![4096, 8, 1]⟩
abbrev S1x1x1024 : Shape := ⟨3, ![1, 1, 1024]⟩
abbrev S4096x8x128 : Shape := ⟨3, ![4096, 8, 128]⟩
abbrev S1x1x128 : Shape := ⟨3, ![1, 1, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x8x1024, .f32⟩
  | .hbm, ⟨1, _⟩ => ⟨S8x4096x1024, .f32⟩
  | .hbm, ⟨2, _⟩ => ⟨S1024, .f32⟩
  | .hbm, ⟨3, _⟩ => ⟨S1024, .f32⟩
  | .hbm, ⟨4, _⟩ => ⟨S128x1024, .f32⟩
  | .hbm, ⟨5, _⟩ => ⟨S128, .f32⟩
  | .hbm, ⟨6, _⟩ => ⟨S1024x128, .f32⟩
  | .hbm, ⟨7, _⟩ => ⟨S1024, .f32⟩
  | .hbm, ⟨8, _⟩ => ⟨S4096x8x1024, .f32⟩
  | .hbm, ⟨9, _⟩ => ⟨S4096x8x1024, .f32⟩
  | .hbm, ⟨10, _⟩ => ⟨S_, .f32⟩
  | .hbm, ⟨11, _⟩ => ⟨S4096x8, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1024, .f32⟩
  | .hbm, ⟨17, _⟩ => ⟨S4096x8x1024, .f32⟩
  | .hbm, ⟨18, _⟩ => ⟨S4096x8x1024, .f32⟩
  | .hbm, ⟨19, _⟩ => ⟨S_, .f32⟩
  | .hbm, ⟨20, _⟩ => ⟨S4096x8, .f32⟩
  | .hbm, ⟨21, _⟩ => ⟨S4096x8x1, .f32⟩
  | .hbm, ⟨22, _⟩ => ⟨S_, .f32⟩
  | .hbm, ⟨23, _⟩ => ⟨S4096x8x1, .f32⟩
  | .hbm, ⟨24, _⟩ => ⟨S4096x8x1, .f32⟩
  | .hbm, ⟨25, _⟩ => ⟨S4096x8x1024, .f32⟩
  | .hbm, ⟨26, _⟩ => ⟨S4096x8x1024, .f32⟩
  | .hbm, ⟨27, _⟩ => ⟨S_, .f32⟩
  | .hbm, ⟨28, _⟩ => ⟨S4096x8x1, .f32⟩
  | .hbm, ⟨29, _⟩ => ⟨S4096x8x1, .f32⟩
  | .hbm, ⟨30, _⟩ => ⟨S4096x8x1, .f32⟩
  | .hbm, ⟨31, _⟩ => ⟨S4096x8x1024, .f32⟩
  | .hbm, ⟨32, _⟩ => ⟨S4096x8x1024, .f32⟩
  | .hbm, ⟨33, _⟩ => ⟨S1x1x1024, .f32⟩
  | .hbm, ⟨34, _⟩ => ⟨S4096x8x1024, .f32⟩
  | .hbm, ⟨35, _⟩ => ⟨S4096x8x1024, .f32⟩
  | .hbm, ⟨36, _⟩ => ⟨S1x1x1024, .f32⟩
  | .hbm, ⟨37, _⟩ => ⟨S4096x8x1024, .f32⟩
  | .hbm, ⟨38, _⟩ => ⟨S4096x8x1024, .f32⟩
  | .hbm, ⟨39, _⟩ => ⟨S4096x8x128, .f32⟩
  | .hbm, ⟨40, _⟩ => ⟨S1x1x128, .f32⟩
  | .hbm, ⟨41, _⟩ => ⟨S4096x8x128, .f32⟩
  | .hbm, ⟨42, _⟩ => ⟨S4096x8x128, .f32⟩
  | .hbm, ⟨43, _⟩ => ⟨S_, .f32⟩
  | .hbm, ⟨44, _⟩ => ⟨S4096x8x128, .f32⟩
  | .hbm, ⟨45, _⟩ => ⟨S4096x8x128, .f32⟩
  | .hbm, ⟨46, _⟩ => ⟨S4096x8x1024, .f32⟩
  | .hbm, ⟨47, _⟩ => ⟨S1x1x1024, .f32⟩
  | .hbm, ⟨48, _⟩ => ⟨S4096x8x1024, .f32⟩
  | .hbm, ⟨49, _⟩ => ⟨S4096x8x1024, .f32⟩
  | .hbm, ⟨50, _⟩ => ⟨S4096x8x1024, .f32⟩
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_cst : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  transposes_S8x4096x1024_S4096x8x1024_1_0_2 : S8x4096x1024.Transposes [1, 0, 2] S4096x8x1024
  reducesTo_S4096x8x1024_S4096x8_d2 : S4096x8x1024.ReducesTo [2] S4096x8
  h_S_ : 0 < S_.numel
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S4096x8x1_S4096x8x1024_0_1_2 : S4096x8x1.BroadcastsInDim S4096x8x1024 (![0, 1, 2] : Fin 3 → Fin S4096x8x1024.rank)
  bcast_S1024_S1x1x1024_2 : S1024.BroadcastsInDim S1x1x1024 (![2] : Fin 1 → Fin S1x1x1024.rank)
  bcast_S1x1x1024_S4096x8x1024_0_1_2 : S1x1x1024.BroadcastsInDim S4096x8x1024 (![0, 1, 2] : Fin 3 → Fin S4096x8x1024.rank)
  bcast_S128_S1x1x128_2 : S128.BroadcastsInDim S1x1x128 (![2] : Fin 1 → Fin S1x1x128.rank)
  bcast_S1x1x128_S4096x8x128_0_1_2 : S1x1x128.BroadcastsInDim S4096x8x128 (![0, 1, 2] : Fin 3 → Fin S4096x8x128.rank)
  bcast_S_S4096x8x128 : S_.BroadcastsInDim S4096x8x128 (![] : Fin 0 → Fin S4096x8x128.rank)
  dot_S4096x8x1024_S128x1024_S4096x8x128_2_1_01_0_n_n_wf : DotDims.WF S4096x8x1024 S128x1024 S4096x8x128 [2] [1] [0, 1] [0] [] []
  dot_S4096x8x128_S1024x128_S4096x8x1024_2_1_01_0_n_n_wf : DotDims.WF S4096x8x128 S1024x128 S4096x8x1024 [2] [1] [0, 1] [0] [] []

variable [Facts₀]

def dot_S4096x8x1024_S128x1024_S4096x8x128_2_1_01_0_n_n : DotDims S4096x8x1024 S128x1024 S4096x8x128 where
  lhsContracting := [2]
  rhsContracting := [1]
  lhsNonContracting := [0, 1]
  rhsNonContracting := [0]
  lhsBatch := []
  rhsBatch := []
  wf := dot_S4096x8x1024_S128x1024_S4096x8x128_2_1_01_0_n_n_wf
def dot_S4096x8x128_S1024x128_S4096x8x1024_2_1_01_0_n_n : DotDims S4096x8x128 S1024x128 S4096x8x1024 where
  lhsContracting := [2]
  rhsContracting := [1]
  lhsNonContracting := [0, 1]
  rhsNonContracting := [0]
  lhsBatch := []
  rhsBatch := []
  wf := dot_S4096x8x128_S1024x128_S4096x8x1024_2_1_01_0_n_n_wf

class Facts : Prop extends Facts₀ where

variable [Facts]
-- ==== Proof.Slice.lean ====
/-
  One [128, 1024] tile of rows through the adapter, written with the kernel body's own vector operations.

  The kernel body treats its [128, 8, 1024] block of `x` and its [8, 128, 1024] block of `residual` as eight tiles of
  128 rows, one per value `b` of the middle (resp. leading) axis, and runs the same sequence of operations on each:
    rowTile     the tile of rows: the x-slice plus the residual-slice, both recast to [128, 1024];
    avgCol      a tile's row averages as a [128, 1] column: the lane sum divided by 1024;
    centredTile the tile minus its row averages;
    invDevCol   rsqrt of (row averages of the squared centred tile, plus the variance floor), a [128, 1] column;
    normedTile  centred · inverse deviation · γ + β (γ, β laid along the rows);
    hiddenTile  max(normed × W₁ + b₁, 0), a [128, 128] tile (W₁ is [1024, 128]);
    outTile     hidden × W₂ + b₂ + the tile of rows (W₂ is [128, 1024]);
    slice       the output tile recast to the [128, 1, 1024] rectangle it is stored through.
  These are definitions over any float instance; the printed payloads of the eight stores are this composition, cut at
  different places for different `b`, so each equals `slice` of its two loads by unfolding (`block_eq_slices`).
-/
import proofs.«147960_j3564822856011_1_alg».proof.Proof.Gen.KernelIdeal.Frame

noncomputable section

namespace Cert.KernelIdeal.Slice

open Cert.KernelIdeal Cert.KernelIdeal.Gen Idealize.ShloMosaic

variable {F : FTy → Type} [FloatOps F]

/-- The tile of rows: entry (p, k) is x-slice (p, 0, k) plus residual-slice (0, p, k). -/
def rowTile (xb : Vec F S128x1x1024 .f32) (rb : Vec F S1x128x1024 .f32) : FVec F S128x1024 .f32 :=
  addf (shapeCast S128x1024 xb shapeCasts_S128x1x1024_S128x1024) (shapeCast S128x1024 rb shapeCasts_S1x128x1024_S128x1024)

/-- The row averages of a tile, as a column. -/
def avgCol (v : FVec F S128x1024 .f32) : FVec F S128x1 .f32 :=
  divf (shapeCast S128x1 (multiReduction .add [1] S128 v 0x00000000#32 reduces_S128x1024_S128 (.inl rfl) rfl) shapeCasts_S128_S128x1)
    (broadcast S128x1 (Scalar.ofBits .f32 0x44800000#32))

/-- A tile minus its row averages. -/
def centredTile (v : FVec F S128x1024 .f32) : FVec F S128x1024 .f32 :=
  subf v (broadcastTo S128x1024 (avgCol v) broadcasts_S128x1_S128x1024)

/-- rsqrt(row variance + floor), as a column. -/
def invDevCol (v : FVec F S128x1024 .f32) : FVec F S128x1 .f32 :=
  rsqrt (addf (avgCol (mulf (centredTile v) (centredTile v))) (broadcast S128x1 (Scalar.ofBits .f32 0x3727C5AC#32)))

/-- The normalised tile, scaled by `g` and shifted by `be` along the rows. -/
def normedTile (v : FVec F S128x1024 .f32) (g be : Vec F S1024 .f32) : FVec F S128x1024 .f32 :=
  addf
    (mulf (mulf (centredTile v) (broadcastTo S128x1024 (invDevCol v) broadcasts_S128x1_S128x1024))
      (broadcastTo S128x1024 (shapeCast S1x1024 g shapeCasts_S1024_S1x1024) broadcasts_S1x1024_S128x1024))
    (broadcastTo S128x1024 (shapeCast S1x1024 be shapeCasts_S1024_S1x1024) broadcasts_S1x1024_S128x1024)

/-- The hidden tile: the down projection plus its bias, clamped below at zero. -/
def hiddenTile (h : FVec F S128x1024 .f32) (wd : FVec F S1024x128 .bf16) (bd : Vec F S128 .f32) : FVec F S128x128 .f32 :=
  maximumf
    (addf (matmul dot_S128x1024_S1024x128_S128x128_1_0_0_1_n_n none (truncf .bf16 h bitsLt_bf16_f32) wd (constant S128x128 .f32 0x00000000#32))
      (broadcastTo S128x128 (shapeCast S1x128 bd shapeCasts_S128_S1x128) broadcasts_S1x128_S128x128))
    (broadcast S128x128 (Scalar.ofBits .f32 0x00000000#32))

/-- The output tile: the up projection plus its bias plus the tile of rows. -/
def outTile (z : FVec F S128x128 .f32) (wu : FVec F S128x1024 .bf16) (bu : Vec F S1024 .f32) (v : FVec F S128x1024 .f32) :
    FVec F S128x1024 .f32 :=
  addf
    (addf (matmul dot_S128x128_S128x1024_S128x1024_1_0_0_1_n_n none (truncf .bf16 z bitsLt_bf16_f32) wu (constant S128x1024 .f32 0x00000000#32))
      (broadcastTo S128x1024 (shapeCast S1x1024 bu shapeCasts_S1024_S1x1024) broadcasts_S1x1024_S128x1024))
    v

/-- One tile through the whole adapter, as the [128, 1, 1024] rectangle stored. -/
def slice (xb : Vec F S128x1x1024 .f32) (rb : Vec F S1x128x1024 .f32) (g be : Vec F S1024 .f32)
    (wd : FVec F S1024x128 .bf16) (bd : Vec F S128 .f32) (wu : FVec F S128x1024 .bf16) (bu : Vec F S1024 .f32) :
    FVec F S128x1x1024 .f32 :=
  shapeCast S128x1x1024 (outTile (hiddenTile (normedTile (rowTile xb rb) g be) wd bd) wu bu (rowTile xb rb))
    shapeCasts_S128x1024_S128x1x1024

/-- What the body leaves in the output block: eight stored rectangles, the one at middle index `b` holding the slice of
    the x-block's rectangle at middle index `b` and the residual-block's rectangle at leading index `b` (listed last
    store first, as the generated term lists them). Each printed payload is the composition above: by unfolding. -/
theorem block_eq_slices (x0 : Vec F S128x8x1024 .f32) (x1 : Vec F S8x128x1024 .f32) (x2 x3 : Vec F S1024 .f32)
    (x4 : Vec F S1024x128 .bf16) (x5 : Vec F S128 .f32) (x6 : Vec F S128x1024 .bf16) (x7 : Vec F S1024 .f32) :
    out0_8 x0 x1 x2 x3 x4 x5 x6 x7
      = View.canon [⟨r0_18, slice (View.ld x0 r0_18) (View.ld x1 r0_19) (View.ld x2 r0_0) (View.ld x3 r0_0) (k0_pay2 (View.ld x4 r0_1)) (View.ld x5 r0_2) (k0_pay3 (View.ld x6 r0_3)) (View.ld x7 r0_0)⟩,
      ⟨r0_16, slice (View.ld x0 r0_16) (View.ld x1 r0_17) (View.ld x2 r0_0) (View.ld x3 r0_0) (k0_pay2 (View.ld x4 r0_1)) (View.ld x5 r0_2) (k0_pay3 (View.ld x6 r0_3)) (View.ld x7 r0_0)⟩,
      ⟨r0_14, slice (View.ld x0 r0_14) (View.ld x1 r0_15) (View.ld x2 r0_0) (View.ld x3 r0_0) (k0_pay2 (View.ld x4 r0_1)) (View.ld x5 r0_2) (k0_pay3 (View.ld x6 r0_3)) (View.ld x7 r0_0)⟩,
      ⟨r0_12, slice (View.ld x0 r0_12) (View.ld x1 r0_13) (View.ld x2 r0_0) (View.ld x3 r0_0) (k0_pay2 (View.ld x4 r0_1)) (View.ld x5 r0_2) (k0_pay3 (View.ld x6 r0_3)) (View.ld x7 r0_0)⟩,
      ⟨r0_10, slice (View.ld x0 r0_10) (View.ld x1 r0_11) (View.ld x2 r0_0) (View.ld x3 r0_0) (k0_pay2 (View.ld x4 r0_1)) (View.ld x5 r0_2) (k0_pay3 (View.ld x6 r0_3)) (View.ld x7 r0_0)⟩,
      ⟨r0_8, slice (View.ld x0 r0_8) (View.ld x1 r0_9) (View.ld x2 r0_0) (View.ld x3 r0_0) (k0_pay2 (View.ld x4 r0_1)) (View.ld x5 r0_2) (k0_pay3 (View.ld x6 r0_3)) (View.ld x7 r0_0)⟩,
      ⟨r0_6, slice (View.ld x0 r0_6) (View.ld x1 r0_7) (View.ld x2 r0_0) (View.ld x3 r0_0) (k0_pay2 (View.ld x4 r0_1)) (View.ld x5 r0_2) (k0_pay3 (View.ld x6 r0_3)) (View.ld x7 r0_0)⟩,
      ⟨r0_4, slice (View.ld x0 r0_4) (View.ld x1 r0_5) (View.ld x2 r0_0) (View.ld x3 r0_0) (k0_pay2 (View.ld x4 r0_1)) (View.ld x5 r0_2) (k0_pay3 (View.ld x6 r0_3)) (View.ld x7 r0_0)⟩] :=
  rfl

end Cert.KernelIdeal.Slice

end
-- ==== Proof.KernelOps.lean ====
import proofs.«147960_j3564822856011_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

/-! The kernel body's non-pointwise operations, each read at an index at the ideal values: four layout forms
(a unit middle axis dropped or added, a vector made a column, a column broadcast along rows), the lane sum of a
row, and the two matrix products as plain sums over the contraction coordinate. -/

noncomputable section
namespace Cert.KernelIdeal.Ops
open Cert.KernelIdeal Idealize.ShloMosaic Idealize.ShloMosaic.ValueIdx
variable {α : Type}

/-! ## Layout forms -/

/-- [a,1,b] cast to [a,b]: entry (i,j) is the operand's (i,0,j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  -- both row-major positions are i * b + j: the unit axis contributes the factor 1 and the coordinate 0
  shapeCast_apply x h _ _ (by
    rw [Shape.rowMajor_val_three, Shape.rowMajor_val_two]
    show (i.val * 1 + 0) * b + j.val = i.val * b + j.val
    rw [Nat.mul_one, Nat.add_zero])

/-- [a,b] cast to [a,1,b]: entry (i,u,j) is the operand's (i,j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  -- the unit coordinate u is 0, so the position (i * 1 + u) * b + j is i * b + j
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a] cast to the column [a,1]: entry (i,u) is the operand's i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  -- the column's position i * 1 + u is i, since u = 0
  shapeCast_apply x h _ _ (by
    have hu : u.val = 0 := by omega
    rw [Shape.rowMajor_val_two, Shape.rowMajor_val_one]
    show i.val = i.val * 1 + u.val
    rw [hu, Nat.mul_one, Nat.add_zero])

/-- A column [a,1] broadcast along rows to [a,b] (b = 1024 or any b): entry (p,c) is the column's (p,0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- the row axis: kept, unless its extent is 1, where the only row is row 0
    show p.val = if a = 1 then 0 else p.val
    split
    · have := p.isLt; omega
    · rfl
  | ⟨1, _⟩ =>
    -- the unit axis: coordinate 0
    show 0 = if (1 : ℕ) = 1 then 0 else c.val
    rfl

/-! ## The lane sum -/

/-- The lane sum of a [128,1024] block at row p is the sum of that row. -/
theorem laneSum_apply (src : FVec Ideal S128x1024 .f32) (h : S128x1024.Reduces [1] S128) (hφ : FKind.Formats .f32)
    (hacc : (0x00000000#32 : BitVec 32) = FKind.add.neutral .f32 hφ) (p : Fin 128) :
    multiReduction .add [1] S128 src 0x00000000#32 h hφ hacc (ix1 p) = ∑ k : Fin 1024, src (ix2 p k) := by
  refine (Ideal.multiReduction_add_single src _ h hφ hacc (ix1 p)).trans ?_
  -- the reduced index (p) with the coordinate k put back on axis 1 is (p, k)
  show (∑ k : Fin 1024, _) = _
  exact Finset.sum_congr rfl fun k _ => congrArg src (funext fun a => Fin.ext (by
    match a with
    | ⟨0, _⟩ => rfl
    | ⟨1, _⟩ => rfl))

/-! ## The two matrix products -/

/-! The down projection's operand indices, one coordinate at a time: at output index i = (p, n) and contraction
index q, the left operand is read at (p, q) and the right at (q, n). -/

theorem lhs_down_0 (i : S128x128.Idx) (q : dot_S128x1024_S1024x128_S128x128_1_0_0_1_n_n.contr.Idx) :
    (dot_S128x1024_S1024x128_S128x128_1_0_0_1_n_n.lhsIdx i q 0).val = (i 0).val := by
  unfold DotDims.lhsIdx
  rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
  rfl
theorem lhs_down_1 (i : S128x128.Idx) (q : dot_S128x1024_S1024x128_S128x128_1_0_0_1_n_n.contr.Idx) :
    (dot_S128x1024_S1024x128_S128x128_1_0_0_1_n_n.lhsIdx i q 1).val = (q ⟨0, by decide⟩).val :=
  dot_S128x1024_S1024x128_S128x128_1_0_0_1_n_n.lhsIdx_val_of_single rfl i q
theorem rhs_down_0 (i : S128x128.Idx) (q : dot_S128x1024_S1024x128_S128x128_1_0_0_1_n_n.contr.Idx) :
    (dot_S128x1024_S1024x128_S128x128_1_0_0_1_n_n.rhsIdx i q 0).val = (q ⟨0, by decide⟩).val :=
  dot_S128x1024_S1024x128_S128x128_1_0_0_1_n_n.rhsIdx_val_of_single rfl i q
theorem rhs_down_1 (i : S128x128.Idx) (q : dot_S128x1024_S1024x128_S128x128_1_0_0_1_n_n.contr.Idx) :
    (dot_S128x1024_S1024x128_S128x128_1_0_0_1_n_n.rhsIdx i q 1).val = (i 1).val := by
  unfold DotDims.rhsIdx
  rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
  rfl

/-- The down projection: a [128,1024] × [1024,128] product into a zero accumulator, at (p, n). -/
theorem matmulDown_apply (lhs : FVec Ideal S128x1024 .bf16) (rhs : FVec Ideal S1024x128 .bf16) (p : Fin 128) (n : Fin 128) :
    matmul dot_S128x1024_S1024x128_S128x128_1_0_0_1_n_n none lhs rhs (constant S128x128 .f32 0x00000000#32) (ix2 p n)
      = ∑ k : Fin 1024, lhs (ix2 p k) * rhs (ix2 k n) := by
  simp only [matmul]
  -- the sum over the one-axis contraction index, re-indexed by its one coordinate k : Fin 1024
  rw [Ideal.matmul_constant_zero_apply, ← Equiv.sum_comp (ValueIdx.contrEquiv1 dot_S128x1024_S1024x128_S128x128_1_0_0_1_n_n 1024 rfl rfl).symm]
  refine Finset.sum_congr rfl fun k _ => ?_
  have hk := ValueIdx.contrEquiv1_symm_val dot_S128x1024_S1024x128_S128x128_1_0_0_1_n_n 1024 rfl rfl k
  have el : dot_S128x1024_S1024x128_S128x128_1_0_0_1_n_n.lhsIdx (ix2 p n) ((ValueIdx.contrEquiv1 dot_S128x1024_S1024x128_S128x128_1_0_0_1_n_n 1024 rfl rfl).symm k) = ix2 p k := funext fun a => Fin.ext (by
    match a with
    | ⟨0, _⟩ => exact lhs_down_0 _ _
    | ⟨1, _⟩ => exact (lhs_down_1 _ _).trans hk)
  have er : dot_S128x1024_S1024x128_S128x128_1_0_0_1_n_n.rhsIdx (ix2 p n) ((ValueIdx.contrEquiv1 dot_S128x1024_S1024x128_S128x128_1_0_0_1_n_n 1024 rfl rfl).symm k) = ix2 k n := funext fun a => Fin.ext (by
    match a with
    | ⟨0, _⟩ => exact (rhs_down_0 _ _).trans hk
    | ⟨1, _⟩ => exact rhs_down_1 _ _)
  rw [el, er]

/-! The up projection's operand indices: at output index i = (p, d) and contraction index q, the left operand is
read at (p, q) and the right at (q, d). -/

theorem lhs_up_0 (i : S128x1024.Idx) (q : dot_S128x128_S128x1024_S128x1024_1_0_0_1_n_n.contr.Idx) :
    (dot_S128x128_S128x1024_S128x1024_1_0_0_1_n_n.lhsIdx i q 0).val = (i 0).val := by
  unfold DotDims.lhsIdx
  rw [dif_neg (show ¬(0 : Fin S128x128.rank) ∈ dot_S128x128_S128x1024_S128x1024_1_0_0_1_n_n.lhsBatch by decide), dif_pos (show (0 : Fin S128x128.rank) ∈ dot_S128x128_S128x1024_S128x1024_1_0_0_1_n_n.lhsNonContracting by decide)]
  rfl
theorem lhs_up_1 (i : S128x1024.Idx) (q : dot_S128x128_S128x1024_S128x1024_1_0_0_1_n_n.contr.Idx) :
    (dot_S128x128_S128x1024_S128x1024_1_0_0_1_n_n.lhsIdx i q 1).val = (q ⟨0, by decide⟩).val :=
  dot_S128x128_S128x1024_S128x1024_1_0_0_1_n_n.lhsIdx_val_of_single rfl i q
theorem rhs_up_0 (i : S128x1024.Idx) (q : dot_S128x128_S128x1024_S128x1024_1_0_0_1_n_n.contr.Idx) :
    (dot_S128x128_S128x1024_S128x1024_1_0_0_1_n_n.rhsIdx i q 0).val = (q ⟨0, by decide⟩).val :=
  dot_S128x128_S128x1024_S128x1024_1_0_0_1_n_n.rhsIdx_val_of_single rfl i q
theorem rhs_up_1 (i : S128x1024.Idx) (q : dot_S128x128_S128x1024_S128x1024_1_0_0_1_n_n.contr.Idx) :
    (dot_S128x128_S128x1024_S128x1024_1_0_0_1_n_n.rhsIdx i q 1).val = (i 1).val := by
  unfold DotDims.rhsIdx
  rw [dif_neg (show ¬(1 : Fin S128x1024.rank) ∈ dot_S128x128_S128x1024_S128x1024_1_0_0_1_n_n.rhsBatch by decide), dif_pos (show (1 : Fin S128x1024.rank) ∈ dot_S128x128_S128x1024_S128x1024_1_0_0_1_n_n.rhsNonContracting by decide)]
  rfl

/-- The up projection: a [128,128] × [128,1024] product into a zero accumulator, at (p, d). -/
theorem matmulUp_apply (lhs : FVec Ideal S128x128 .bf16) (rhs : FVec Ideal S128x1024 .bf16) (p : Fin 128) (d : Fin 1024) :
    matmul dot_S128x128_S128x1024_S128x1024_1_0_0_1_n_n none lhs rhs (constant S128x1024 .f32 0x00000000#32) (ix2 p d)
      = ∑ n : Fin 128, lhs (ix2 p n) * rhs (ix2 n d) := by
  simp only [matmul]
  -- the sum over the one-axis contraction index, re-indexed by its one coordinate n : Fin 128
  rw [Ideal.matmul_constant_zero_apply, ← Equiv.sum_comp (ValueIdx.contrEquiv1 dot_S128x128_S128x1024_S128x1024_1_0_0_1_n_n 128 rfl rfl).symm]
  refine Finset.sum_congr rfl fun k _ => ?_
  have hk := ValueIdx.contrEquiv1_symm_val dot_S128x128_S128x1024_S128x1024_1_0_0_1_n_n 128 rfl rfl k
  have el : dot_S128x128_S128x1024_S128x1024_1_0_0_1_n_n.lhsIdx (ix2 p d) ((ValueIdx.contrEquiv1 dot_S128x128_S128x1024_S128x1024_1_0_0_1_n_n 128 rfl rfl).symm k) = ix2 p k := funext fun a => Fin.ext (by
    match a with
    | ⟨0, _⟩ => exact lhs_up_0 _ _
    | ⟨1, _⟩ => exact (lhs_up_1 _ _).trans hk)
  have er : dot_S128x128_S128x1024_S128x1024_1_0_0_1_n_n.rhsIdx (ix2 p d) ((ValueIdx.contrEquiv1 dot_S128x128_S128x1024_S128x1024_1_0_0_1_n_n 128 rfl rfl).symm k) = ix2 k d := funext fun a => Fin.ext (by
    match a with
    | ⟨0, _⟩ => exact (rhs_up_0 _ _).trans hk
    | ⟨1, _⟩ => exact rhs_up_1 _ _)
  rw [el, er]

end Cert.KernelIdeal.Ops
end
-- ==== Proof.RowSpec.lean ====
/-
  The mathematics both programs compute, stated once over the extended reals.

  One ROW of 1024 numbers `r` (an entry of `x` plus the entry of `residual` with the two leading axes exchanged) goes through
  a bottleneck adapter:
    mean      μ   = (Σₖ rₖ) / 1024
    variance  σ²  = (Σₖ (rₖ - μ)²) / 1024
    normed    hₖ  = (rₖ - μ) · rsqrt(σ² + ε) · γₖ + βₖ
    hidden    zₙ  = max(Σₖ hₖ · Wdown[n, k] + bdown[n], 0)          (n < 128)
    output    o_d = Σₙ zₙ · Wup[d, n] + bup[d] + r_d                 (d < 1024)
  The divisor 1024 and the floor ε are the extended reals their binary words denote; the same two words occur in both
  programs, so neither is ever evaluated. Sums are finite sums in the commutative monoid of the extended reals: no order of
  summation and no tiling of a row is visible in them.

  `wholeArray` is the result array: entry (s, b, d) is the output at `d` of the row (s, b).
-/
import Idealize.ShloMosaic.PureOps.Ideal
import Idealize.ShloMosaic.Lib.ValueIdx

noncomputable section

namespace Cert.Adapter

open Idealize.ShloMosaic Idealize.ShloMosaic.ValueIdx

/-- The row length 1024 as the extended real its f32 word denotes. -/
abbrev width : EReal := Ideal.ofBits .f32 0x44800000#32
/-- The variance floor (the f32 nearest 1e-5) as the extended real its word denotes. -/
abbrev varFloor : EReal := Ideal.ofBits .f32 0x3727C5AC#32

/-- The mean of a row. -/
def mean (r : Fin 1024 → EReal) : EReal := Ideal.div (∑ k : Fin 1024, r k) width

/-- The (biased) variance of a row. -/
def variance (r : Fin 1024 → EReal) : EReal :=
  Ideal.div (∑ k : Fin 1024, (r k - mean r) * (r k - mean r)) width

/-- The row normalised, scaled by `g` and shifted by `be`. -/
def normed (r g be : Fin 1024 → EReal) (k : Fin 1024) : EReal :=
  (r k - mean r) * Ideal.rsqrt (variance r + varFloor) * g k + be k

/-- The 128 hidden units: the down projection of the normalised row, plus its bias, clamped below at zero. -/
def hidden (r g be : Fin 1024 → EReal) (Wd : Fin 128 → Fin 1024 → EReal) (bd : Fin 128 → EReal) (n : Fin 128) : EReal :=
  max ((∑ k : Fin 1024, normed r g be k * Wd n k) + bd n) 0

/-- The adapter's output on a row: the up projection of the hidden units, plus its bias, plus the row itself. -/
def rowOut (r g be : Fin 1024 → EReal) (Wd : Fin 128 → Fin 1024 → EReal) (bd : Fin 128 → EReal)
    (Wu : Fin 1024 → Fin 128 → EReal) (bu : Fin 1024 → EReal) (d : Fin 1024) : EReal :=
  (∑ n : Fin 128, hidden r g be Wd bd n * Wu d n) + bu d + r d

/-- Row (s, b) of the input: `x[s, b, ·] + residual[b, s, ·]`. -/
def row (x : (⟨3, ![4096, 8, 1024]⟩ : Shape).Idx → EReal) (res : (⟨3, ![8, 4096, 1024]⟩ : Shape).Idx → EReal)
    (s : Fin 4096) (b : Fin 8) (k : Fin 1024) : EReal :=
  x (ix3 s b k) + res (ix3 b s k)

/-- The whole result: entry (s, b, d) is the adapter's output at `d` on row (s, b). -/
def wholeArray (x : (⟨3, ![4096, 8, 1024]⟩ : Shape).Idx → EReal) (res : (⟨3, ![8, 4096, 1024]⟩ : Shape).Idx → EReal)
    (g be : (⟨1, ![1024]⟩ : Shape).Idx → EReal) (Wd : (⟨2, ![128, 1024]⟩ : Shape).Idx → EReal)
    (bd : (⟨1, ![128]⟩ : Shape).Idx → EReal) (Wu : (⟨2, ![1024, 128]⟩ : Shape).Idx → EReal)
    (bu : (⟨1, ![1024]⟩ : Shape).Idx → EReal) : (⟨3, ![4096, 8, 1024]⟩ : Shape).Idx → EReal :=
  fun i => rowOut (row x res (i 0) (i 1)) (fun k => g (ix1 k)) (fun k => be (ix1 k)) (fun n k => Wd (ix2 n k))
    (fun n => bd (ix1 n)) (fun d n => Wu (ix2 d n)) (fun d => bu (ix1 d)) (i 2)

end Cert.Adapter

end
-- ==== Proof.SliceValue.lean ====
/-
  The slice of one tile, read entry by entry at the ideal values, is the adapter on the tile's rows.

  Row `p` of the tile of rows is  k ↦ x-slice (p, 0, k) + residual-slice (0, p, k).  Stage by stage: a tile's row
  average at row p is the mean of row p; the centred tile at (p, k) is the row entry minus that mean; the inverse
  deviation at row p is rsqrt(variance of row p + floor); the normed tile at (p, k) is the normalised entry times γₖ
  plus βₖ; the hidden tile at (p, n) is max(Σₖ normedₖ · W₁(k, n) + b₁(n), 0); the output tile at (p, d) is
  Σₙ hiddenₙ · W₂(n, d) + b₂(d) + the row entry at d. The two changes of format before the products are the
  identity on extended reals, and a product into a zero accumulator is the plain sum.
-/
import proofs.«147960_j3564822856011_1_alg».proof.Proof.Slice
import proofs.«147960_j3564822856011_1_alg».proof.Proof.KernelOps
import proofs.«147960_j3564822856011_1_alg».proof.Proof.RowSpec
import Idealize.ShloMosaic.Lib.ValueLayout

noncomputable section

namespace Cert.KernelIdeal.Slice

open Cert.KernelIdeal Cert.KernelIdeal.Gen Idealize.ShloMosaic Idealize.ShloMosaic.ValueIdx Cert.Adapter Cert.KernelIdeal.Ops

/-- Row `p` of a [128, 1024] tile. -/
def tileRow (v : FVec Ideal S128x1024 .f32) (p : Fin 128) : Fin 1024 → EReal := fun k => v (ix2 p k)

/-- The tile of rows at (p, k). -/
theorem rowTile_apply (xb : Vec Ideal S128x1x1024 .f32) (rb : Vec Ideal S1x128x1024 .f32) (p : Fin 128) (k : Fin 1024) :
    rowTile xb rb (ix2 p k) = xb (ix3 p (0 : Fin 1) k) + rb (ix3 (0 : Fin 1) p k) :=
  congrArg₂ (· + ·) (shapeCast_a1b_ab_apply xb _ p k) (shapeCast_1ab_ab_apply rb _ p k)

/-- A tile's row average at row p is the mean of row p. -/
theorem avgCol_apply (v : FVec Ideal S128x1024 .f32) (p : Fin 128) (u : Fin 1) :
    avgCol v (ix2 p u) = mean (tileRow v p) :=
  congrArg (fun t => Ideal.div t width) ((shapeCast_a_a1_apply _ _ p u).trans (laneSum_apply v _ _ _ p))

/-- The centred tile at (p, k): the entry minus its row's mean. -/
theorem centredTile_apply (v : FVec Ideal S128x1024 .f32) (p : Fin 128) (k : Fin 1024) :
    centredTile v (ix2 p k) = v (ix2 p k) - mean (tileRow v p) :=
  congrArg (fun t => v (ix2 p k) - t) ((broadcastTo_a1_ab_apply _ _ p k).trans (avgCol_apply v p 0))

/-- The inverse deviation at row p. -/
theorem invDevCol_apply (v : FVec Ideal S128x1024 .f32) (p : Fin 128) (u : Fin 1) :
    invDevCol v (ix2 p u) = Ideal.rsqrt (variance (tileRow v p) + varFloor) := by
  refine congrArg (fun t => Ideal.rsqrt (t + varFloor)) ((avgCol_apply _ p u).trans ?_)
  unfold variance mean
  refine congrArg (fun t => Ideal.div t width) (Finset.sum_congr rfl fun k _ => ?_)
  exact congrArg₂ (· * ·) (centredTile_apply v p k) (centredTile_apply v p k)

/-- The normed tile at (p, k). -/
theorem normedTile_apply (v : FVec Ideal S128x1024 .f32) (g be : Vec Ideal S1024 .f32) (p : Fin 128) (k : Fin 1024) :
    normedTile v g be (ix2 p k) = normed (tileRow v p) (fun k => g (ix1 k)) (fun k => be (ix1 k)) k := by
  unfold normed
  refine congrArg₂ (· + ·) (congrArg₂ (· * ·) (congrArg₂ (· * ·) (centredTile_apply v p k) ?_) ?_) ?_
  · exact (broadcastTo_a1_ab_apply _ _ p k).trans (invDevCol_apply v p 0)
  · exact (broadcastTo_1b_ab_apply _ _ p k).trans (shapeCast_a_1a_apply g _ 0 k)
  · exact (broadcastTo_1b_ab_apply _ _ p k).trans (shapeCast_a_1a_apply be _ 0 k)

/-- The hidden tile at (p, n), for a tile `h` whose row p is known entry by entry. -/
theorem hiddenTile_apply (h : FVec Ideal S128x1024 .f32) (wd : FVec Ideal S1024x128 .bf16) (bd : Vec Ideal S128 .f32)
    (p : Fin 128) (n : Fin 128) :
    hiddenTile h wd bd (ix2 p n) = max ((∑ k : Fin 1024, h (ix2 p k) * wd (ix2 k n)) + bd (ix1 n)) 0 := by
  refine congrArg₂ max (congrArg₂ (· + ·) ?_ ?_) Ideal.ofBits_zero_f32
  · exact matmulDown_apply _ wd p n
  · exact (broadcastTo_1b_ab_apply _ _ p n).trans (shapeCast_a_1a_apply bd _ 0 n)

/-- The output tile at (p, d). -/
theorem outTile_apply (z : FVec Ideal S128x128 .f32) (wu : FVec Ideal S128x1024 .bf16) (bu : Vec Ideal S1024 .f32)
    (v : FVec Ideal S128x1024 .f32) (p : Fin 128) (d : Fin 1024) :
    outTile z wu bu v (ix2 p d) = (∑ n : Fin 128, z (ix2 p n) * wu (ix2 n d)) + bu (ix1 d) + v (ix2 p d) := by
  refine congrArg₂ (· + ·) (congrArg₂ (· + ·) ?_ ?_) rfl
  · exact matmulUp_apply _ wu p d
  · exact (broadcastTo_1b_ab_apply _ _ p d).trans (shapeCast_a_1a_apply bu _ 0 d)

/-- THE SLICE, entry by entry: at (p, u, q) it is the adapter's output at `q` on row p of the tile of rows, with the
    weights read as W₁(k, n) for the down projection and W₂(n, d) for the up projection. -/
theorem slice_apply (xb : Vec Ideal S128x1x1024 .f32) (rb : Vec Ideal S1x128x1024 .f32) (g be : Vec Ideal S1024 .f32)
    (wd : FVec Ideal S1024x128 .bf16) (bd : Vec Ideal S128 .f32) (wu : FVec Ideal S128x1024 .bf16) (bu : Vec Ideal S1024 .f32)
    (p : Fin 128) (u : Fin 1) (q : Fin 1024) :
    slice xb rb g be wd bd wu bu (ix3 p u q)
      = rowOut (fun k => xb (ix3 p (0 : Fin 1) k) + rb (ix3 (0 : Fin 1) p k)) (fun k => g (ix1 k)) (fun k => be (ix1 k))
          (fun n k => wd (ix2 k n)) (fun n => bd (ix1 n)) (fun d n => wu (ix2 n d)) (fun d => bu (ix1 d)) q := by
  have hrow : tileRow (rowTile xb rb) p = fun k => xb (ix3 p (0 : Fin 1) k) + rb (ix3 (0 : Fin 1) p k) :=
    funext fun k => rowTile_apply xb rb p k
  refine (shapeCast_ab_a1b_apply _ _ p u q).trans ((outTile_apply _ wu bu _ p q).trans ?_)
  unfold rowOut
  refine congrArg₂ (· + ·) (congrArg (fun t => t + bu (ix1 q)) (Finset.sum_congr rfl fun n _ => ?_)) (rowTile_apply xb rb p q)
  refine congrArg (fun t => t * wu (ix2 n q)) ((hiddenTile_apply _ wd bd p n).trans ?_)
  unfold Cert.Adapter.hidden
  refine congrArg (fun t => max (t + bd (ix1 n)) 0) (Finset.sum_congr rfl fun k _ => ?_)
  refine congrArg (fun t => t * wd (ix2 k n)) ((normedTile_apply _ g be p k).trans ?_)
  rw [hrow]

end Cert.KernelIdeal.Slice

end
-- ==== Proof.BlockValue.lean ====
/-
  What the body leaves in the [128, 8, 1024] output block, entry by entry.

  The block is stored as eight rectangles [128, 1, 1024], the one at middle index b holding the slice of the x-block's
  rectangle at middle index b and of the residual-block's rectangle at leading index b. Entry (p, u, q) of the rectangle at
  offset (0, b, 0) is entry (p, b, q) of the block; entry (u, p, k) of the rectangle at offset (b, 0, 0) of the
  residual-block is its entry (b, p, k). So entry (p, b, q) of the output block is the adapter's output at q on the row
      k ↦ x-block (p, b, k) + residual-block (b, p, k),
  with γ, β, the two biases and the two weight operands read whole: one function `blockOut` of the block index, which all
  eight pieces agree with; the eight rectangles tile the block, so the block IS that function.
-/
import proofs.«147960_j3564822856011_1_alg».proof.Proof.SliceValue
import Idealize.ShloMosaic.Lib.Pipeline.Value

noncomputable section

namespace Cert.KernelIdeal.Slice

open Cert.KernelIdeal Cert.KernelIdeal.Gen Idealize.ShloMosaic Idealize.ShloMosaic.ValueIdx Cert.Adapter

/-- The adapter's output depends on its arguments only through their values. -/
theorem rowOut_congr {r r' g g' be be' : Fin 1024 → EReal} {Wd Wd' : Fin 128 → Fin 1024 → EReal} {bd bd' : Fin 128 → EReal}
    {Wu Wu' : Fin 1024 → Fin 128 → EReal} {bu bu' : Fin 1024 → EReal} {d d' : Fin 1024}
    (hr : ∀ k, r k = r' k) (hg : ∀ k, g k = g' k) (hbe : ∀ k, be k = be' k) (hWd : ∀ n k, Wd n k = Wd' n k)
    (hbd : ∀ n, bd n = bd' n) (hWu : ∀ d n, Wu d n = Wu' d n) (hbu : ∀ d, bu d = bu' d) (hd : d = d') :
    rowOut r g be Wd bd Wu bu d = rowOut r' g' be' Wd' bd' Wu' bu' d' := by
  obtain rfl : r = r' := funext hr
  obtain rfl : g = g' := funext hg
  obtain rfl : be = be' := funext hbe
  obtain rfl : Wd = Wd' := funext fun n => funext (hWd n)
  obtain rfl : bd = bd' := funext hbd
  obtain rfl : Wu = Wu' := funext fun d => funext (hWu d)
  obtain rfl : bu = bu' := funext hbu
  rw [hd]

/-- Entry (p, b, q) of the output block as a function of the eight input blocks. -/
def blockOut (x0 : Vec Ideal S128x8x1024 .f32) (x1 : Vec Ideal S8x128x1024 .f32) (x2 x3 : Vec Ideal S1024 .f32)
    (x4 : Vec Ideal S1024x128 .bf16) (x5 : Vec Ideal S128 .f32) (x6 : Vec Ideal S128x1024 .bf16) (x7 : Vec Ideal S1024 .f32) :
    S128x8x1024.Idx → EReal :=
  fun y => rowOut (fun k => x0 (ix3 (y 0) (y 1) k) + x1 (ix3 (y 1) (y 0) k)) (fun k => x2 (ix1 k)) (fun k => x3 (ix1 k))
    (fun n k => x4 (ix2 k n)) (fun n => x5 (ix1 n)) (fun d n => x6 (ix2 n d)) (fun d => x7 (ix1 d)) (y 2)

theorem zeros1 : (![0] : Fin 1 → Nat) = fun _ => 0 := funext fun a => by fin_cases a; rfl
theorem zeros2 : (![0, 0] : Fin 2 → Nat) = fun _ => 0 := funext fun a => by fin_cases a <;> rfl

/-- The [128, 1, 1024] rectangle at offset (0, b, 0) of a [128, 8, 1024] block, in coordinates. -/
theorem rectX_idx (b : Nat) (bb : Fin 8) (hb : bb.val = b)
    (inb : ∀ a, (![0, b, 0] : Fin 3 → Nat) a + S128x1x1024.size a ≤ S128x8x1024.size a)
    (p : Fin 128) (u : Fin 1) (k : Fin 1024) :
    (Rect.unit (s := S128x8x1024) ![0, b, 0] S128x1x1024.size inb).idx (ix3 p u k) = ix3 p bb k := by
  have hu : u.val = 0 := by omega
  funext a; apply Fin.ext
  match a with
  | ⟨0, _⟩ => show 0 + 1 * p.val = p.val; omega
  | ⟨1, _⟩ => show b + 1 * u.val = bb.val; omega
  | ⟨2, _⟩ => show 0 + 1 * k.val = k.val; omega

/-- The [1, 128, 1024] rectangle at offset (b, 0, 0) of an [8, 128, 1024] block, in coordinates. -/
theorem rectR_idx (b : Nat) (bb : Fin 8) (hb : bb.val = b)
    (inb : ∀ a, (![b, 0, 0] : Fin 3 → Nat) a + S1x128x1024.size a ≤ S8x128x1024.size a)
    (u : Fin 1) (p : Fin 128) (k : Fin 1024) :
    (Rect.unit (s := S8x128x1024) ![b, 0, 0] S1x128x1024.size inb).idx (ix3 u p k) = ix3 bb p k := by
  have hu : u.val = 0 := by omega
  funext a; apply Fin.ext
  match a with
  | ⟨0, _⟩ => show b + 1 * u.val = bb.val; omega
  | ⟨1, _⟩ => show 0 + 1 * p.val = p.val; omega
  | ⟨2, _⟩ => show 0 + 1 * k.val = k.val; omega

/-- THE PIECE at middle index b agrees with `blockOut` on its rectangle. -/
theorem piece_eq (x0 : Vec Ideal S128x8x1024 .f32) (x1 : Vec Ideal S8x128x1024 .f32) (x2 x3 : Vec Ideal S1024 .f32)
    (x4 : Vec Ideal S1024x128 .bf16) (x5 : Vec Ideal S128 .f32) (x6 : Vec Ideal S128x1024 .bf16) (x7 : Vec Ideal S1024 .f32)
    (b : Nat) (bb : Fin 8) (hb : bb.val = b)
    (inbx : ∀ a, (![0, b, 0] : Fin 3 → Nat) a + S128x1x1024.size a ≤ S128x8x1024.size a)
    (inbr : ∀ a, (![b, 0, 0] : Fin 3 → Nat) a + S1x128x1024.size a ≤ S8x128x1024.size a)
    (x : S128x1x1024.Idx) :
    slice (View.ld x0 (Rect.unit (s := S128x8x1024) ![0, b, 0] S128x1x1024.size inbx))
        (View.ld x1 (Rect.unit (s := S8x128x1024) ![b, 0, 0] S1x128x1024.size inbr))
        (View.ld x2 r0_0) (View.ld x3 r0_0) (k0_pay2 (View.ld x4 r0_1)) (View.ld x5 r0_2) (k0_pay3 (View.ld x6 r0_3)) (View.ld x7 r0_0) x
      = blockOut x0 x1 x2 x3 x4 x5 x6 x7 ((Rect.unit (s := S128x8x1024) ![0, b, 0] S128x1x1024.size inbx).emb x) := by
  obtain ⟨p, u, q, rfl⟩ : ∃ (p : Fin 128) (u : Fin 1) (q : Fin 1024), x = ix3 p u q := ⟨x 0, x 1, x 2, eq_ix3 x⟩
  have hemb : (Rect.unit (s := S128x8x1024) ![0, b, 0] S128x1x1024.size inbx).emb (ix3 p u q) = ix3 p bb q :=
    rectX_idx b bb hb inbx p u q
  rw [hemb]
  refine (slice_apply _ _ _ _ _ _ _ _ p u q).trans ?_
  refine rowOut_congr (fun k => ?_) (fun k => ?_) (fun k => ?_) (fun n k => ?_) (fun n => ?_) (fun d n => ?_) (fun d => ?_) rfl
  · exact congrArg₂ (· + ·) (congrArg x0 (rectX_idx b bb hb inbx p 0 k)) (congrArg x1 (rectR_idx b bb hb inbr 0 p k))
  · exact congrFun (View.ld_unit_zero (S := S1024) zeros1 _ x2) (ix1 k)
  · exact congrFun (View.ld_unit_zero (S := S1024) zeros1 _ x3) (ix1 k)
  · exact (congrFun (shapeCast_self _ _) (ix2 k n)).trans (congrFun (View.ld_unit_zero (S := S1024x128) zeros2 _ x4) (ix2 k n))
  · exact congrFun (View.ld_unit_zero (S := S128) zeros1 _ x5) (ix1 n)
  · exact (congrFun (shapeCast_self _ _) (ix2 n d)).trans (congrFun (View.ld_unit_zero (S := S128x1024) zeros2 _ x6) (ix2 n d))
  · exact congrFun (View.ld_unit_zero (S := S1024) zeros1 _ x7) (ix1 d)

/-- THE OUTPUT BLOCK after the body is `blockOut` of the input blocks: each of the eight stored rectangles holds
    `blockOut` on its indices, and the eight tile the block. -/
theorem out_block_eq (x0 : Vec Ideal S128x8x1024 .f32) (x1 : Vec Ideal S8x128x1024 .f32) (x2 x3 : Vec Ideal S1024 .f32)
    (x4 : Vec Ideal S1024x128 .bf16) (x5 : Vec Ideal S128 .f32) (x6 : Vec Ideal S128x1024 .bf16) (x7 : Vec Ideal S1024 .f32) :
    out0_8 x0 x1 x2 x3 x4 x5 x6 x7 = blockOut x0 x1 x2 x3 x4 x5 x6 x7 := by
  rw [block_eq_slices]
  funext y
  refine View.canon_apply_of_pieces (Val := Elt Ideal) (S := S128x8x1024) (e := .f32) (blockOut x0 x1 x2 x3 x4 x5 x6 x7) _ ?_ y (cover0_8 _ _ _ _ _ _ _ _ y)
  intro pc hpc x
  simp only [List.mem_cons, List.mem_singleton, List.not_mem_nil, or_false] at hpc
  rcases hpc with rfl | rfl | rfl | rfl | rfl | rfl | rfl | rfl
  · exact piece_eq x0 x1 x2 x3 x4 x5 x6 x7 7 ⟨7, by decide⟩ rfl _ _ x
  · exact piece_eq x0 x1 x2 x3 x4 x5 x6 x7 6 ⟨6, by decide⟩ rfl _ _ x
  · exact piece_eq x0 x1 x2 x3 x4 x5 x6 x7 5 ⟨5, by decide⟩ rfl _ _ x
  · exact piece_eq x0 x1 x2 x3 x4 x5 x6 x7 4 ⟨4, by decide⟩ rfl _ _ x
  · exact piece_eq x0 x1 x2 x3 x4 x5 x6 x7 3 ⟨3, by decide⟩ rfl _ _ x
  · exact piece_eq x0 x1 x2 x3 x4 x5 x6 x7 2 ⟨2, by decide⟩ rfl _ _ x
  · exact piece_eq x0 x1 x2 x3 x4 x5 x6 x7 1 ⟨1, by decide⟩ rfl _ _ x
  · exact piece_eq x0 x1 x2 x3 x4 x5 x6 x7 0 ⟨0, by decide⟩ rfl _ _ x

end Cert.KernelIdeal.Slice

end
-- ==== Proof.BlockFacts.lean ====
import proofs.«147960_j3564822856011_1_alg».proof.Proof.Gen.KernelIdeal.Value
import Idealize.ShloMosaic.Lib.ValueIdx
import Idealize.ShloMosaic.Lib.ValueLayout
import Idealize.ShloMosaic.Lib.Pipeline.Value
import Idealize.ShloMosaic.Lib.StableHlo.Run

/-! The pipeline's windows in coordinates, at the ideal values: what each input window's block holds at grid
point t, what the output window's block of a whole-array function reads, the two weight operands computed
before the call, and the cover of the result array by the 32 output blocks. -/

noncomputable section
namespace Cert.KernelIdeal.BlockFacts
open Cert.KernelIdeal Cert.KernelIdeal.Gen Idealize.ShloMosaic Idealize.ShloMosaic.TcCoe Idealize.SL.Sem Idealize.ShloMosaic.ValueIdx
variable (m : (ℓ : Loc nD τ sig) → Buf (Elt Ideal) ℓ)

/-! ## The block indices, decided over the grid -/

/-- Windows 0 and 8 step along axis 0 with the grid point and stay at block 0 on the other axes. -/
theorem idx_facts0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_facts8 : ∀ t : Fin cfg0.N, win0_8.index t (0 : Fin 3) = t.val ∧ win0_8.index t (1 : Fin 3) = 0 ∧ win0_8.index t (2 : Fin 3) = 0 :=
  (by decide +kernel : ∀ t : Fin grid0.N, _)
/-- Window 1 steps along axis 1 with the grid point and stays at block 0 on the other axes. -/
theorem idx_facts1 : ∀ t : Fin cfg0.N, win0_1.index t (0 : Fin 3) = 0 ∧ win0_1.index t (1 : Fin 3) = t.val ∧ win0_1.index t (2 : Fin 3) = 0 :=
  (by decide +kernel : ∀ t : Fin grid0.N, _)

/-! ## The row-blocked windows -/

/-- Row p of the block of grid point t is row 128·t + p of the array. -/
def srow (t : Fin cfg0.N) (p : Fin 128) : Fin 4096 :=
  ⟨128 * t.val + p.val, by have hN : cfg0.N = 32 := N_0; have := t.isLt; have := p.isLt; omega⟩

theorem iblk0_apply (c : Dev nD) (t : Fin cfg0.N) (p : Fin 128) (b : Fin 8) (k : Fin 1024) :
    (iblk m c 0 t : S128x8x1024.Idx → EReal) (ix3 p b k) = (m ((c : Thread nD τ).loc main_arg0) : S4096x8x1024.Idx → EReal) (ix3 (srow t p) b k) := by
  obtain ⟨e0, e1, e2⟩ := idx_facts0 t
  show V m c main_arg0 (((cfg0.win 0).blk t).view.emb (ix3 p b k)) = _
  refine (congrFun (V_main_arg0 m c) _).trans ?_
  refine congrArg _ (funext fun a => Fin.ext ?_)
  match a with
  | ⟨0, _⟩ => show win0_0.index t (0 : Fin 3) * 128 + 1 * p.val = 128 * t.val + p.val; omega
  | ⟨1, _⟩ => show win0_0.index t (1 : Fin 3) * 8 + 1 * b.val = b.val; omega
  | ⟨2, _⟩ => show win0_0.index t (2 : Fin 3) * 1024 + 1 * k.val = k.val; omega

theorem iblk1_apply (c : Dev nD) (t : Fin cfg0.N) (b : Fin 8) (p : Fin 128) (k : Fin 1024) :
    (iblk m c 1 t : S8x128x1024.Idx → EReal) (ix3 b p k) = (m ((c : Thread nD τ).loc main_arg1) : S8x4096x1024.Idx → EReal) (ix3 b (srow t p) k) := by
  obtain ⟨e0, e1, e2⟩ := idx_facts1 t
  show V m c main_arg1 (((cfg0.win 1).blk t).view.emb (ix3 b p k)) = _
  refine (congrFun (V_main_arg1 m c) _).trans ?_
  refine congrArg _ (funext fun a => Fin.ext ?_)
  match a with
  | ⟨0, _⟩ => show win0_1.index t (0 : Fin 3) * 8 + 1 * b.val = b.val; omega
  | ⟨1, _⟩ => show win0_1.index t (1 : Fin 3) * 128 + 1 * p.val = 128 * t.val + p.val; omega
  | ⟨2, _⟩ => show win0_1.index t (2 : Fin 3) * 1024 + 1 * k.val = k.val; omega

/-- The output window's block at t of a whole-array function G, in coordinates. -/
theorem read8_apply (G : S4096x8x1024.Idx → EReal) (t : Fin cfg0.N) (p : Fin 128) (b : Fin 8) (k : Fin 1024) :
    (((cfg0.win 8).blk t).view.read (Elt Ideal) G : S128x8x1024.Idx → EReal) (ix3 p b k) = G (ix3 (srow t p) b k) := by
  obtain ⟨e0, e1, e2⟩ := idx_facts8 t
  show G (((cfg0.win 8).blk t).view.emb (ix3 p b k)) = _
  refine congrArg G (funext fun a => Fin.ext ?_)
  match a with
  | ⟨0, _⟩ => show win0_8.index t (0 : Fin 3) * 128 + 1 * p.val = 128 * t.val + p.val; omega
  | ⟨1, _⟩ => show win0_8.index t (1 : Fin 3) * 8 + 1 * b.val = b.val; omega
  | ⟨2, _⟩ => show win0_8.index t (2 : Fin 3) * 1024 + 1 * k.val = k.val; omega

/-! ## The cover of the result array -/

/-- An index of the result array is in point t's block iff each coordinate is in the block's range on its axis. -/
theorem mem_blk8 (t : Fin cfg0.N) (i : S4096x8x1024.Idx) :
    i ∈ ((cfg0.win 8).blk t).view.set ↔ ∀ a : Fin 3, win0_8.index t a * S128x8x1024.size a ≤ (i a).val ∧ (i a).val < win0_8.index t a * S128x8x1024.size a + S128x8x1024.size a := by
  show i ∈ ((View.whole main_v4).slice (win0_8.rect t)).set ↔ _
  rw [View.set_slice_whole, Rect.mem_set_unit]
  exact Iff.rfl

/-- Every index of the result array lies in the block of some flushing point (the point s / 128). -/
theorem cover (i : S4096x8x1024.Idx) : ∃ t : Fin cfg0.N, (cfg0.win 8).flush t = true ∧ i ∈ ((cfg0.win 8).blk t).view.set := by
  have hN : cfg0.N = 32 := N_0
  have hi0 : (i 0).val < 4096 := (i 0).isLt
  have hi1 : (i 1).val < 8 := (i 1).isLt
  have hi2 : (i 2).val < 1024 := (i 2).isLt
  -- the point whose block holds row s is s / 128
  let t : Fin cfg0.N := ⟨(i 0).val / 128, by omega⟩
  have ht : t.val = (i 0).val / 128 := rfl
  obtain ⟨e0, e1, e2⟩ := idx_facts8 t
  refine ⟨t, flush0_8 t, ?_⟩
  rw [mem_blk8]
  intro a
  match a with
  | ⟨0, _⟩ => show win0_8.index t (0 : Fin 3) * 128 ≤ (i 0).val ∧ (i 0).val < win0_8.index t (0 : Fin 3) * 128 + 128; omega
  | ⟨1, _⟩ => show win0_8.index t (1 : Fin 3) * 8 ≤ (i 1).val ∧ (i 1).val < win0_8.index t (1 : Fin 3) * 8 + 8; omega
  | ⟨2, _⟩ => show win0_8.index t (2 : Fin 3) * 1024 ≤ (i 2).val ∧ (i 2).val < win0_8.index t (2 : Fin 3) * 1024 + 1024; omega

/-! ## The whole-vector windows: the block at every point is the whole array (block index 0) -/

theorem idx_facts2 : ∀ t : Fin cfg0.N, win0_2.index t (0 : Fin 1) = 0 :=
  (by decide +kernel : ∀ t : Fin grid0.N, _)
theorem iblk2_eq (c : Dev nD) (t : Fin cfg0.N) : (iblk m c 2 t : S1024.Idx → EReal) = m ((c : Thread nD τ).loc main_arg2) := by
  have e0 := idx_facts2 t
  funext y
  show V m c main_arg2 (((cfg0.win 2).blk t).view.emb y) = _
  refine (congrFun (V_main_arg2 m c) _).trans ?_
  refine congrArg _ (funext fun a => Fin.ext ?_)
  match a with
  | ⟨0, _⟩ => show win0_2.index t (0 : Fin 1) * 1024 + 1 * (y 0).val = (y 0).val; omega

theorem idx_facts3 : ∀ t : Fin cfg0.N, win0_3.index t (0 : Fin 1) = 0 :=
  (by decide +kernel : ∀ t : Fin grid0.N, _)
theorem iblk3_eq (c : Dev nD) (t : Fin cfg0.N) : (iblk m c 3 t : S1024.Idx → EReal) = m ((c : Thread nD τ).loc main_arg3) := by
  have e0 := idx_facts3 t
  funext y
  show V m c main_arg3 (((cfg0.win 3).blk t).view.emb y) = _
  refine (congrFun (V_main_arg3 m c) _).trans ?_
  refine congrArg _ (funext fun a => Fin.ext ?_)
  match a with
  | ⟨0, _⟩ => show win0_3.index t (0 : Fin 1) * 1024 + 1 * (y 0).val = (y 0).val; omega

theorem idx_facts5 : ∀ t : Fin cfg0.N, win0_5.index t (0 : Fin 1) = 0 :=
  (by decide +kernel : ∀ t : Fin grid0.N, _)
theorem iblk5_eq (c : Dev nD) (t : Fin cfg0.N) : (iblk m c 5 t : S128.Idx → EReal) = m ((c : Thread nD τ).loc main_arg5) := by
  have e0 := idx_facts5 t
  funext y
  show V m c main_arg5 (((cfg0.win 5).blk t).view.emb y) = _
  refine (congrFun (V_main_arg5 m c) _).trans ?_
  refine congrArg _ (funext fun a => Fin.ext ?_)
  match a with
  | ⟨0, _⟩ => show win0_5.index t (0 : Fin 1) * 128 + 1 * (y 0).val = (y 0).val; omega

theorem idx_facts7 : ∀ t : Fin cfg0.N, win0_7.index t (0 : Fin 1) = 0 :=
  (by decide +kernel : ∀ t : Fin grid0.N, _)
theorem iblk7_eq (c : Dev nD) (t : Fin cfg0.N) : (iblk m c 7 t : S1024.Idx → EReal) = m ((c : Thread nD τ).loc main_arg7) := by
  have e0 := idx_facts7 t
  funext y
  show V m c main_arg7 (((cfg0.win 7).blk t).view.emb y) = _
  refine (congrFun (V_main_arg7 m c) _).trans ?_
  refine congrArg _ (funext fun a => Fin.ext ?_)
  match a with
  | ⟨0, _⟩ => show win0_7.index t (0 : Fin 1) * 1024 + 1 * (y 0).val = (y 0).val; omega

/-! ## The two weight windows: each stages, whole, an array computed before the call -/

theorem idx_facts4 : ∀ t : Fin cfg0.N, win0_4.index t (0 : Fin 2) = 0 ∧ win0_4.index t (1 : Fin 2) = 0 :=
  (by decide +kernel : ∀ t : Fin grid0.N, _)
theorem idx_facts6 : ∀ t : Fin cfg0.N, win0_6.index t (0 : Fin 2) = 0 ∧ win0_6.index t (1 : Fin 2) = 0 :=
  (by decide +kernel : ∀ t : Fin grid0.N, _)

/-- The down weight as the region finds it: the launched [128,1024] array transposed to [1024,128], then narrowed. -/
theorem V_main_v1 (c : Dev nD) : @Eq (FVec Ideal S1024x128 .bf16) (V m c main_v1)
    (truncf .bf16 (transpose S1024x128 [1, 0] (m ((c : Thread nD τ).loc main_arg4) : FVec Ideal S128x1024 .f32) transposes_S128x1024_S1024x128_1_0) bitsLt_bf16_f32) := by
  dsimp only [Gen.V, Gen.hostOps0]; after_results

/-- The up weight as the region finds it: the launched [1024,128] array transposed to [128,1024], then narrowed. -/
theorem V_main_v3 (c : Dev nD) : @Eq (FVec Ideal S128x1024 .bf16) (V m c main_v3)
    (truncf .bf16 (transpose S128x1024 [1, 0] (m ((c : Thread nD τ).loc main_arg6) : FVec Ideal S1024x128 .f32) transposes_S1024x128_S128x1024_1_0) bitsLt_bf16_f32) := by
  dsimp only [Gen.V, Gen.hostOps0]; after_results

theorem iblk4_apply (c : Dev nD) (t : Fin cfg0.N) (k : Fin 1024) (n : Fin 128) :
    (iblk m c 4 t : S1024x128.Idx → EReal) (ix2 k n) = (m ((c : Thread nD τ).loc main_arg4) : S128x1024.Idx → EReal) (ix2 n k) := by
  obtain ⟨e0, e1⟩ := idx_facts4 t
  show V m c main_v1 (((cfg0.win 4).blk t).view.emb (ix2 k n)) = _
  -- the block is the whole array: its index (k, n) is the array's (k, n)
  have hemb : ((cfg0.win 4).blk t).view.emb (ix2 k n) = (ix2 k n : S1024x128.Idx) := funext fun a => Fin.ext (by
    match a with
    | ⟨0, _⟩ => show win0_4.index t (0 : Fin 2) * 1024 + 1 * k.val = k.val; omega
    | ⟨1, _⟩ => show win0_4.index t (1 : Fin 2) * 128 + 1 * n.val = n.val; omega)
  refine (congrArg (V m c main_v1 : S1024x128.Idx → EReal) hemb).trans ?_
  refine (congrFun (V_main_v1 m c) _).trans ?_
  -- narrowing is the identity at the ideal values; the transpose reads (k, n) at the operand's (n, k)
  refine (truncf_apply (ψ := .bf16) (φ := .f32) _ bitsLt_bf16_f32 _).trans ?_
  exact transpose_ix2_apply _ _ k n

theorem iblk6_apply (c : Dev nD) (t : Fin cfg0.N) (n : Fin 128) (d : Fin 1024) :
    (iblk m c 6 t : S128x1024.Idx → EReal) (ix2 n d) = (m ((c : Thread nD τ).loc main_arg6) : S1024x128.Idx → EReal) (ix2 d n) := by
  obtain ⟨e0, e1⟩ := idx_facts6 t
  show V m c main_v3 (((cfg0.win 6).blk t).view.emb (ix2 n d)) = _
  have hemb : ((cfg0.win 6).blk t).view.emb (ix2 n d) = (ix2 n d : S128x1024.Idx) := funext fun a => Fin.ext (by
    match a with
    | ⟨0, _⟩ => show win0_6.index t (0 : Fin 2) * 128 + 1 * n.val = n.val; omega
    | ⟨1, _⟩ => show win0_6.index t (1 : Fin 2) * 1024 + 1 * d.val = d.val; omega)
  refine (congrArg (V m c main_v3 : S128x1024.Idx → EReal) hemb).trans ?_
  refine (congrFun (V_main_v3 m c) _).trans ?_
  refine (truncf_apply (ψ := .bf16) (φ := .f32) _ bitsLt_bf16_f32 _).trans ?_
  exact transpose_ix2_apply _ _ n d

end Cert.KernelIdeal.BlockFacts
end
-- ==== Proof.KernelValue.lean ====
/-
  The kernel's result array, as one function of the argument arrays.

  Grid point t works on rows 128·t … 128·t + 127: its x-block is rows 128·t + p of `x` (all 8 middle indices), its
  residual-block the same rows of `residual` (under every leading index), and the six small operands are read whole —
  the two weight operands being the transposes the program forms before the call, so that the down projection reads
  W_down(n, k) and the up projection W_up(d, n). Hence entry (p, b, q) of what point t writes back is the adapter's output
  at q on row (128·t + p, b) of the input: block t of `wholeArray`. The 32 blocks cover the 4096 rows, so the array
  after the run is `wholeArray` of the arguments.
-/
import proofs.«147960_j3564822856011_1_alg».proof.Proof.BlockValue
import proofs.«147960_j3564822856011_1_alg».proof.Proof.BlockFacts
import proofs.«147960_j3564822856011_1_alg».proof.Proof.Gen.KernelIdeal.Value

noncomputable section

namespace Cert.KernelIdeal.RowValue

open Cert.KernelIdeal Cert.KernelIdeal.Gen Idealize.ShloMosaic Idealize.ShloMosaic.TcCoe Idealize.SL.Sem
open Idealize.ShloMosaic.ValueIdx Cert.Adapter
open Idealize.ShloMosaic.Pipeline (Dat)

variable (m : (ℓ : Loc nD τ sig) → Buf (Elt Ideal) ℓ) (ρ : Dev nD → PrngReg)

/-- Entry (p, b, q) of `blockOut` of eight blocks is entry (s, b, q) of `wholeArray` of eight arrays, when row p of the
    x-block is row s of `x`, row p of the residual-block is row s of `residual`, the four vectors are the arrays themselves,
    and the two weight operands are the weight arrays transposed. Stated over plain functions. -/
theorem blockOut_at (x0 : Vec Ideal S128x8x1024 .f32) (x1 : Vec Ideal S8x128x1024 .f32) (x2 x3 : Vec Ideal S1024 .f32)
    (x4 : Vec Ideal S1024x128 .bf16) (x5 : Vec Ideal S128 .f32) (x6 : Vec Ideal S128x1024 .bf16) (x7 : Vec Ideal S1024 .f32)
    (a0 : S4096x8x1024.Idx → EReal) (a1 : S8x4096x1024.Idx → EReal) (a2 a3 : S1024.Idx → EReal) (a4 : S128x1024.Idx → EReal)
    (a5 : S128.Idx → EReal) (a6 : S1024x128.Idx → EReal) (a7 : S1024.Idx → EReal)
    (s : Fin 4096) (p : Fin 128) (b : Fin 8) (q : Fin 1024)
    (h0 : ∀ k, x0 (ix3 p b k) = a0 (ix3 s b k)) (h1 : ∀ k, x1 (ix3 b p k) = a1 (ix3 b s k))
    (h2 : x2 = a2) (h3 : x3 = a3) (h4 : ∀ k n, x4 (ix2 k n) = a4 (ix2 n k)) (h5 : x5 = a5)
    (h6 : ∀ n d, x6 (ix2 n d) = a6 (ix2 d n)) (h7 : x7 = a7) :
    Slice.blockOut x0 x1 x2 x3 x4 x5 x6 x7 (ix3 p b q) = wholeArray a0 a1 a2 a3 a4 a5 a6 a7 (ix3 s b q) := by
  subst h2 h3 h5 h7
  exact Slice.rowOut_congr (fun k => congrArg₂ (· + ·) (h0 k) (h1 k)) (fun _ => rfl) (fun _ => rfl) (fun n k => h4 k n)
    (fun _ => rfl) (fun d n => h6 n d) (fun _ => rfl) rfl

/-- The result array on core `c`: the adapter applied to every row of the arguments as launched. -/
def result (c : Dev nD) : S4096x8x1024.Idx → EReal :=
  wholeArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- WHAT POINT t WRITES BACK is block t of `result`. -/
theorem flushed_eq (c : Dev nD) (t : Fin cfg0.N) :
    (dats m 0 c).flushed 8 t = ((cfg0.win 8).blk t).view.read (Elt Ideal) (result m c) := by
  rw [Cert.KernelIdeal.Value.flushed8]
  funext (y : S128x8x1024.Idx)
  show out0_8 (iblk m c 0 t) (iblk m c 1 t) (iblk m c 2 t) (iblk m c 3 t) (iblk m c 4 t) (iblk m c 5 t) (iblk m c 6 t) (iblk m c 7 t) y = _
  rw [Slice.out_block_eq]
  obtain ⟨p, b, q, rfl⟩ : ∃ (p : Fin 128) (b : Fin 8) (q : Fin 1024), y = ix3 p b q := ⟨y 0, y 1, y 2, eq_ix3 y⟩
  exact (blockOut_at (iblk m c 0 t) (iblk m c 1 t) (iblk m c 2 t) (iblk m c 3 t) (iblk m c 4 t) (iblk m c 5 t) (iblk m c 6 t) (iblk m c 7 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      (BlockFacts.srow t p) p b q
      (fun k => BlockFacts.iblk0_apply m c t p b k) (fun k => BlockFacts.iblk1_apply m c t b p k)
      (BlockFacts.iblk2_eq m c t) (BlockFacts.iblk3_eq m c t) (fun k n => BlockFacts.iblk4_apply m c t k n)
      (BlockFacts.iblk5_eq m c t) (fun n d => BlockFacts.iblk6_apply m c t n d) (BlockFacts.iblk7_eq m c t)).trans
    (BlockFacts.read8_apply (result m c) t p b q).symm

/-- THE ARRAY after the run is `result`: every index lies in some point's block. -/
theorem final (c : Dev nD) : (dats m 0 c).arrAt 8 cfg0.N = result m c :=
  (dats m 0 c).arrAt_eq_of_cover 8 (result m c) (fun t _ => flushed_eq m c t) BlockFacts.cover

/-- The run: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.RowValue

end
-- ==== Proof.RefRow.lean ====
/-
  The reference program's result, read index by index, is the adapter of the specification.

  Each lemma below reads one stage of the reference at an arbitrary index of the stage's own shape and states it through the
  index's coordinates: the row (an entry of the first input plus the entry of the second with its two leading axes
  exchanged), its mean, the centred row, its variance, the reciprocal square root of the floored variance, the normalised
  row, the hidden units, and the output. The two sides are the same formula; the only law used is 0 + a = a, for the
  initial value of the two row sums.
-/
import proofs.«147960_j3564822856011_1_alg».proof.Proof.Gen.ReferenceIdeal.Read
import proofs.«147960_j3564822856011_1_alg».proof.Proof.RowSpec
import Idealize.ShloMosaic.PureOps.Ideal.Laws

noncomputable section

namespace Cert.ReferenceIdeal.RowValue

open Cert.ReferenceIdeal Cert.ReferenceIdeal.Read Idealize.ShloMosaic Idealize.ShloMosaic.ValueIdx Cert.Adapter

variable (x0 : (⟨S4096x8x1024, .f32⟩ : BufTy).Contents (Elt Ideal)) (x1 : (⟨S8x4096x1024, .f32⟩ : BufTy).Contents (Elt Ideal))
    (x2 x3 : (⟨S1024, .f32⟩ : BufTy).Contents (Elt Ideal)) (x4 : (⟨S128x1024, .f32⟩ : BufTy).Contents (Elt Ideal))
    (x5 : (⟨S128, .f32⟩ : BufTy).Contents (Elt Ideal)) (x6 : (⟨S1024x128, .f32⟩ : BufTy).Contents (Elt Ideal))
    (x7 : (⟨S1024, .f32⟩ : BufTy).Contents (Elt Ideal))

/-- The row: entry (s, b, k) of the first stage is the first input at (s, b, k) plus the second at (b, s, k). -/
theorem v1_apply (i : S4096x8x1024.Idx) :
    val_main_v1 (F := Ideal) x0 x1 i = row x0 x1 (i 0) (i 1) (i 2) := by
  rw [val_main_v1_apply, val_main_v0_apply]
  unfold row
  refine congrArg₂ (· + ·) (congrArg x0 (eq_ix3 i)) (congrArg x1 ?_)
  exact funext fun a => Fin.ext (by match a with | ⟨0, _⟩ => rfl | ⟨1, _⟩ => rfl | ⟨2, _⟩ => rfl)

/-- The mean of row (s, b): the row's sum, started from zero, over the width. -/
theorem v5_apply (j : S4096x8x1.Idx) :
    val_main_v5 (F := Ideal) x0 x1 j = mean (row x0 x1 (j 0) (j 1)) := by
  rw [val_main_v5_apply, val_main_v3_apply, val_main_v4_apply, val_main_v2_apply, val_main_cst_0_apply, val_main_cst_apply]
  simp only [v1_apply, Ideal.hostDivf_def, Ideal.ofBits_def, Ideal.ofBits_zero_f32, zero_add]
  unfold mean
  rfl

/-- The centred row: an entry of the row minus the row's mean. -/
theorem v7_apply (i : S4096x8x1024.Idx) :
    val_main_v7 (F := Ideal) x0 x1 i = row x0 x1 (i 0) (i 1) (i 2) - mean (row x0 x1 (i 0) (i 1)) := by
  rw [val_main_v7_apply, val_main_v6_apply]
  simp only [v1_apply, v5_apply, Ideal.subf_def]
  rfl

/-- The centred row once more (the reference computes it a second time for the normalisation). -/
theorem v14_apply (i : S4096x8x1024.Idx) :
    val_main_v14 (F := Ideal) x0 x1 i = row x0 x1 (i 0) (i 1) (i 2) - mean (row x0 x1 (i 0) (i 1)) := by
  rw [val_main_v14_apply, val_main_v13_apply]
  simp only [v1_apply, v5_apply, Ideal.subf_def]
  rfl

/-- The variance of row (s, b): the sum of the squared centred entries, started from zero, over the width. -/
theorem v12_apply (j : S4096x8x1.Idx) :
    val_main_v12 (F := Ideal) x0 x1 j = variance (row x0 x1 (j 0) (j 1)) := by
  rw [val_main_v12_apply, val_main_v10_apply, val_main_v11_apply, val_main_v9_apply, val_main_cst_2_apply,
    val_main_cst_1_apply]
  simp only [val_main_v8_apply, v7_apply, Ideal.mulf_def, Ideal.hostDivf_def, Ideal.ofBits_def, Ideal.ofBits_zero_f32,
    zero_add]
  unfold variance
  rfl

/-- The scale of row (s, b): the reciprocal square root of the variance plus the floor. -/
theorem v17_apply (j : S4096x8x1.Idx) :
    val_main_v17 (F := Ideal) x0 x1 j = Ideal.rsqrt (variance (row x0 x1 (j 0) (j 1)) + varFloor) := by
  rw [val_main_v17_apply, val_main_v16_apply, val_main_v15_apply, val_main_cst_3_apply]
  simp only [v12_apply, Ideal.addf_def, Ideal.hostUnary_rsqrt_def, Ideal.ofBits_def]

/-- The normalised row: the centred entry times the scale times the gain at k, plus the shift at k. -/
theorem v25_apply (i : S4096x8x1024.Idx) :
    val_main_v25 (F := Ideal) x0 x1 x2 x3 i
      = normed (row x0 x1 (i 0) (i 1)) (fun k => x2 (ix1 k)) (fun k => x3 (ix1 k)) (i 2) := by
  rw [val_main_v25_apply, val_main_v22_apply, val_main_v19_apply, val_main_v18_apply, val_main_v21_apply,
    val_main_v20_apply, val_main_v24_apply, val_main_v23_apply]
  simp only [v14_apply, v17_apply, Ideal.addf_def, Ideal.mulf_def]
  unfold normed
  refine congrArg₂ (· + ·) (congrArg₂ (· * ·) rfl (congrArg x2 ?_)) (congrArg x3 ?_)
  · exact funext fun a => Fin.ext (by match a with | ⟨0, _⟩ => rfl)
  · exact funext fun a => Fin.ext (by match a with | ⟨0, _⟩ => rfl)

/-- The hidden units of row (s, b): the down projection of the normalised row at n, plus its bias, clamped below at zero. -/
theorem v30_apply (i : S4096x8x128.Idx) :
    val_main_v30 (F := Ideal) x0 x1 x2 x3 x4 x5 i
      = Cert.Adapter.hidden (row x0 x1 (i 0) (i 1)) (fun k => x2 (ix1 k)) (fun k => x3 (ix1 k)) (fun n k => x4 (ix2 n k))
          (fun n => x5 (ix1 n)) (i 2) := by
  rw [val_main_v30_apply, val_main_v29_apply, val_main_v26_apply, val_main_v28_apply, val_main_v27_apply,
    val_main_call0_v0_apply, val_main_call0_cst_apply]
  simp only [v25_apply, Ideal.maximumf_def, Ideal.addf_def, Ideal.ofBits_def, Ideal.ofBits_zero_f32]
  unfold Cert.Adapter.hidden
  refine congrArg₂ max (congrArg₂ (· + ·) (Finset.sum_congr rfl fun k _ => ?_) (congrArg x5 ?_)) rfl
  · exact congrArg₂ (· * ·) rfl
      (congrArg x4 (funext fun a => Fin.ext (by match a with | ⟨0, _⟩ => rfl | ⟨1, _⟩ => rfl)))
  · exact funext fun a => Fin.ext (by match a with | ⟨0, _⟩ => rfl)

/-- The up projection of the hidden units of row (s, b) at d, plus its bias. -/
theorem v34_apply (i : S4096x8x1024.Idx) :
    val_main_v34 (F := Ideal) x0 x1 x2 x3 x4 x5 x6 x7 i
      = (∑ n : Fin 128, Cert.Adapter.hidden (row x0 x1 (i 0) (i 1)) (fun k => x2 (ix1 k)) (fun k => x3 (ix1 k))
            (fun n k => x4 (ix2 n k)) (fun n => x5 (ix1 n)) n * x6 (ix2 (i 2) n)) + x7 (ix1 (i 2)) := by
  rw [val_main_v34_apply, val_main_v31_apply, val_main_v33_apply, val_main_v32_apply]
  simp only [v30_apply, Ideal.addf_def]
  refine congrArg₂ (· + ·) (Finset.sum_congr rfl fun n _ => ?_) (congrArg x7 ?_)
  · exact congrArg₂ (· * ·) rfl
      (congrArg x6 (funext fun a => Fin.ext (by match a with | ⟨0, _⟩ => rfl | ⟨1, _⟩ => rfl)))
  · exact funext fun a => Fin.ext (by match a with | ⟨0, _⟩ => rfl)

/-- The reference's result is the specification's array: entry (s, b, d) is the up projection at d plus the row at d. -/
theorem reference_eq
    (x0 : (⟨S4096x8x1024, .f32⟩ : BufTy).Contents (Elt Ideal)) (x1 : (⟨S8x4096x1024, .f32⟩ : BufTy).Contents (Elt Ideal))
    (x2 x3 : (⟨S1024, .f32⟩ : BufTy).Contents (Elt Ideal)) (x4 : (⟨S128x1024, .f32⟩ : BufTy).Contents (Elt Ideal))
    (x5 : (⟨S128, .f32⟩ : BufTy).Contents (Elt Ideal)) (x6 : (⟨S1024x128, .f32⟩ : BufTy).Contents (Elt Ideal))
    (x7 : (⟨S1024, .f32⟩ : BufTy).Contents (Elt Ideal)) :
    val_main_v35 (F := Ideal) x0 x1 x2 x3 x4 x5 x6 x7 = wholeArray x0 x1 x2 x3 x4 x5 x6 x7 := by
  funext i
  rw [val_main_v35_apply]
  simp only [v34_apply, v1_apply, Ideal.addf_def]
  unfold wholeArray rowOut
  rfl

end Cert.ReferenceIdeal.RowValue

end
-- ==== Proof.lean ====
/-
  The certificate of a bottleneck adapter over rows of 1024 numbers.

  Both programs compute, for every row (s, b) of `x + residualᵀ` (the two leading axes of `residual` exchanged): layer
  normalisation of the row (mean and biased variance over the 1024 entries, the variance floored by the f32 nearest 1e-5,
  scale γ and shift β), a projection down to 128 hidden units with bias and a clamp at zero, a projection back up to
  1024 with bias, and the row added back. The kernel does it tile by tile — 32 grid points of 128 rows, eight tiles per
  point, its two weight operands transposed beforehand and its products taken through a narrower float format —; the
  reference does it on the whole arrays. Over the extended reals a change of float format is the identity and a sum does
  not depend on its order or grouping, so both results are ONE function of the arguments, `Cert.Adapter.wholeArray`
  (Proof/RowSpec.lean):
    · the kernel's result array is that function — Proof/Slice.lean (a tile through the body's operations),
      Proof/SliceValue.lean (the tile entry by entry), Proof/BlockValue.lean (the output block from its eight stored
      rectangles), Proof/BlockFacts.lean (the blocks in coordinates, the cover), Proof/KernelValue.lean (the run);
    · the reference's result is that function — Proof/RefRow.lean, stage by stage over the generated reading of its run.
  No law beyond 0 + a = a is used, so the precondition (finite inputs) is never opened. The three frames are the generated
  frame runs (the reference's is its generated run with the result dropped); the idealization rewrote nothing.
-/
import proofs.«147960_j3564822856011_1_alg».proof.Defs
import proofs.«147960_j3564822856011_1_alg».proof.Proof.Gen.Kernel
import proofs.«147960_j3564822856011_1_alg».proof.Proof.Gen.Kernel.Skeleton
import proofs.«147960_j3564822856011_1_alg».proof.Proof.Gen.Kernel.Launch
import proofs.«147960_j3564822856011_1_alg».proof.Proof.Gen.Kernel.Points
import proofs.«147960_j3564822856011_1_alg».proof.Proof.Gen.Kernel.Frame
import proofs.«147960_j3564822856011_1_alg».proof.Proof.Gen.KernelIdeal
import proofs.«147960_j3564822856011_1_alg».proof.Proof.Gen.KernelIdeal.Skeleton
import proofs.«147960_j3564822856011_1_alg».proof.Proof.Gen.KernelIdeal.Launch
import proofs.«147960_j3564822856011_1_alg».proof.Proof.Gen.KernelIdeal.Points
import proofs.«147960_j3564822856011_1_alg».proof.Proof.Gen.KernelIdeal.Frame
import proofs.«147960_j3564822856011_1_alg».proof.Proof.Gen.ReferenceIdeal
import proofs.«147960_j3564822856011_1_alg».proof.Proof.Gen.Pre_finite_inputs
import proofs.«147960_j3564822856011_1_alg».proof.Proof.Gen.KernelIdeal.Value
import proofs.«147960_j3564822856011_1_alg».proof.Proof.Gen.ReferenceIdeal.Run
import proofs.«147960_j3564822856011_1_alg».proof.Proof.Gen.ReferenceIdeal.Read
import proofs.«147960_j3564822856011_1_alg».proof.Proof.KernelValue
import proofs.«147960_j3564822856011_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments, the kernel's result array and the reference's result are the same
    function of those arguments, entry by entry. -/
theorem algebraic : Cert.algebraic_KernelIdeal_ReferenceIdeal := by
  intro m ρ m' ρ' _ hagree
  refine ⟨fun c => Cert.KernelIdeal.RowValue.result m c, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RowValue.reference_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
